-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x384 : Shape := ⟨2, ![128, 384]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_

variable [Facts]

def fn {F : FTy → Type} [FloatOps F] (main_arg0 : FVec F S100000x128 .f32) (main_arg1 : FVec F S128x384 .f32) (main_arg2 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  main_v8
-- ==== Kernel.lean ====
abbrev S100000x128 : Shape := ⟨2, ![100000, 128]⟩
abbrev S128x384 : Shape := ⟨2, ![128, 384]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S128x128 : Shape := ⟨2, ![128, 128]⟩
abbrev S5000x128 : Shape := ⟨2, ![5000, 128]⟩

abbrev nBuf : Space → Nat
  | .hbm => 64
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x384, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S100000, .f32⟩
  | .hbm, ⟨49, _⟩ => ⟨S800000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x384 : Shape := ⟨2, ![128, 384]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x384 : Shape := ⟨2, ![100000, 384]⟩
abbrev S384x128 : Shape := ⟨2, ![384, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x384, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S100000, .f32⟩
  | .hbm, ⟨49, _⟩ => ⟨S800000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x384, .f32⟩
  | .hbm, ⟨58, _⟩ => ⟨S384x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x384_S384x128_S100000x128_1_0_0_1_n_n_wf : DotDims.WF S100000x384 S384x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Bands.lean ====
/-
  Three feature matrices with 128 columns each, set side by side and multiplied against a stored 128 × 384 weight
  matrix transposed, versus the three 128-column bands of that weight matrix taken one at a time.

  Write h, a, b for the three [n, 128] matrices and W for the stored [128, 384] weights. Entry (p, q) of
  [h | a | b] · Wᵀ is the sum over the 384 columns k of [h | a | b][p, k] · W[q, k]; the columns fall into three
  bands of 128, and on band number s the concatenation reads its s-th piece, so the sum is
      Σ_k h[p,k]·W[q,k]  +  Σ_k a[p,k]·W[q,128+k]  +  Σ_k b[p,k]·W[q,256+k].
  Splitting a finite sum by a partition of its index set needs only that addition is commutative and associative,
  which holds on the extended reals, so no finiteness of the entries is used.
-/
import Idealize.ShloMosaic.PureOps.Ideal.Laws
import Idealize.ShloMosaic.Lib.ValueIdx
import Idealize.ShloMosaic.Lib.Pipeline.Value

noncomputable section

open scoped BigOperators

namespace Cert.Bands

open Idealize.ShloMosaic Idealize.ShloMosaic.ValueIdx

/-- Column k of the first band of the 384 columns. -/
abbrev col0 (k : Fin 128) : Fin 384 := ⟨k.val, by omega⟩
/-- Column k of the second band: 128 + k. -/
abbrev col1 (k : Fin 128) : Fin 384 := ⟨128 + k.val, by omega⟩
/-- Column k of the third band: 256 + k. -/
abbrev col2 (k : Fin 128) : Fin 384 := ⟨256 + k.val, by omega⟩

/-- Entry (p, q) before the rectifier: each of the three matrices against its own band of the weights' columns. -/
def lin {n : Nat} (h a b : (⟨2, ![n, 128]⟩ : Shape).Idx → EReal) (w : (⟨2, ![128, 384]⟩ : Shape).Idx → EReal)
    (p : Fin n) (q : Fin 128) : EReal :=
  (∑ k : Fin 128, h (ix2 p k) * w (ix2 q (col0 k))) + (∑ k : Fin 128, a (ix2 p k) * w (ix2 q (col1 k)))
    + ∑ k : Fin 128, b (ix2 p k) * w (ix2 q (col2 k))

/-- The layer's output: the rectifier max(·, 0) of `lin`, index by index. -/
def out {n : Nat} (h a b : (⟨2, ![n, 128]⟩ : Shape).Idx → EReal) (w : (⟨2, ![128, 384]⟩ : Shape).Idx → EReal) :
    (⟨2, ![n, 128]⟩ : Shape).Idx → EReal :=
  fun j => max (lin h a b w (j 0) (j 1)) 0

/-- A sum over the 384 columns is the sum of its three bands. -/
theorem sum_bands {M : Type*} [AddCommMonoid M] (f : Fin 384 → M) :
    ∑ k : Fin 384, f k = (∑ k : Fin 128, f (col0 k)) + (∑ k : Fin 128, f (col1 k)) + ∑ k : Fin 128, f (col2 k) := by
  have h1 : ∑ k : Fin (256 + 128), f k
      = ∑ i : Fin 256, f (Fin.castAdd 128 i) + ∑ i : Fin 128, f (Fin.natAdd 256 i) := @Fin.sum_univ_add M _ 256 128 f
  have h2 : ∑ i : Fin (128 + 128), f (Fin.castAdd 128 i)
      = ∑ i : Fin 128, f (Fin.castAdd 128 (Fin.castAdd 128 i)) + ∑ i : Fin 128, f (Fin.castAdd 128 (Fin.natAdd 128 i)) :=
    @Fin.sum_univ_add M _ 128 128 (fun i : Fin (128 + 128) => f (Fin.castAdd 128 i))
  exact h1.trans (congrArg (· + ∑ i : Fin 128, f (Fin.natAdd 256 i)) h2)

variable {α : Type} {n : Nat}

/-- The concatenation along the columns read in the first band: the first piece. -/
theorem concat_col0 (x0 x1 x2 : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate (⟨2, ![n, 384]⟩ : Shape) 1 [⟨⟨2, ![n, 128]⟩, x0⟩, ⟨⟨2, ![n, 128]⟩, x1⟩, ⟨⟨2, ![n, 128]⟩, x2⟩] h (ix2 p (col0 k))
      = x0 (ix2 p k) :=
  concatenate_apply_piece 1 [⟨⟨2, ![n, 128]⟩, x0⟩, ⟨⟨2, ![n, 128]⟩, x1⟩, ⟨⟨2, ![n, 128]⟩, x2⟩] h (ix2 p (col0 k)) 0 (by show 0 < 3; omega) _ x0 rfl rfl 0 rfl (ix2 p k)
    (fun b => match b with
      | ⟨0, _⟩ => fun _ => rfl
      | ⟨1, _⟩ => fun hb => absurd rfl hb)
    (Nat.zero_add _)

/-- In the second band: the second piece. -/
theorem concat_col1 (x0 x1 x2 : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate (⟨2, ![n, 384]⟩ : Shape) 1 [⟨⟨2, ![n, 128]⟩, x0⟩, ⟨⟨2, ![n, 128]⟩, x1⟩, ⟨⟨2, ![n, 128]⟩, x2⟩] h (ix2 p (col1 k))
      = x1 (ix2 p k) :=
  concatenate_apply_piece 1 [⟨⟨2, ![n, 128]⟩, x0⟩, ⟨⟨2, ![n, 128]⟩, x1⟩, ⟨⟨2, ![n, 128]⟩, x2⟩] h (ix2 p (col1 k)) 1 (by show 1 < 3; omega) _ x1 rfl rfl 128 rfl (ix2 p k)
    (fun b => match b with
      | ⟨0, _⟩ => fun _ => rfl
      | ⟨1, _⟩ => fun hb => absurd rfl hb)
    rfl

/-- In the third band: the third piece. -/
theorem concat_col2 (x0 x1 x2 : (⟨2, ![n, 128]⟩ : Shape).Idx → α)
    (h : Shape.Concatenates [(⟨2, ![n, 128]⟩ : Shape), ⟨2, ![n, 128]⟩, ⟨2, ![n, 128]⟩] ⟨2, ![n, 384]⟩ 1) (p : Fin n) (k : Fin 128) :
    concatenate (⟨2, ![n, 384]⟩ : Shape) 1 [⟨⟨2, ![n, 128]⟩, x0⟩, ⟨⟨2, ![n, 128]⟩, x1⟩, ⟨⟨2, ![n, 128]⟩, x2⟩] h (ix2 p (col2 k))
      = x2 (ix2 p k) :=
  concatenate_apply_piece 1 [⟨⟨2, ![n, 128]⟩, x0⟩, ⟨⟨2, ![n, 128]⟩, x1⟩, ⟨⟨2, ![n, 128]⟩, x2⟩] h (ix2 p (col2 k)) 2 (by show 2 < 3; omega) _ x2 rfl rfl 256 rfl (ix2 p k)
    (fun b => match b with
      | ⟨0, _⟩ => fun _ => rfl
      | ⟨1, _⟩ => fun hb => absurd rfl hb)
    rfl

end Cert.Bands

end
-- ==== Proof.KernelPay.lean ====
/-
  One grid point's output block, entry by entry.

  The body loads three [5000, 128] row blocks and three [128, 128] weight blocks, rounds each to bf16 (the identity on
  the extended reals), takes the three matrix products into zero accumulators, adds them, and applies max(·, 0).
  So entry (p, q) of the stored block is
      max( Σ_k x0[p,k]·w3[k,q] + Σ_k x1[p,k]·w4[k,q] + Σ_k x2[p,k]·w5[k,q], 0 ).
-/
import proofs.«101564_j81329500717451_1_alg».proof.Proof.Gen.KernelIdeal.Skeleton
import proofs.«101564_j81329500717451_1_alg».proof.Proof.LibPlainDot
import proofs.«101564_j81329500717451_1_alg».proof.Proof.Bands
import Idealize.ShloMosaic.Lib.Pipeline.Value

noncomputable section

open scoped BigOperators

namespace Cert.KernelPay

open Cert.KernelIdeal Cert.KernelIdeal.Gen
open Idealize.ShloMosaic Idealize.ShloMosaic.ValueIdx

/-- The body's contraction is the plain [5000,128] by [128,128] matrix product. -/
theorem dot_eq : dot_S5000x128_S128x128_S5000x128_1_0_0_1_n_n = DotDims.plain 5000 128 128 := rfl

theorem pay_apply (x0 x1 x2 : Vec Ideal S5000x128 .f32) (w3 w4 w5 : Vec Ideal S128x128 .f32) (p : Fin 5000) (q : Fin 128) :
    k0_pay1 (F := Ideal) x0 x1 x2 w3 w4 w5 (ix2 p q)
      = max ((∑ k : Fin 128, x0 (ix2 p k) * w3 (ix2 k q)) + (∑ k : Fin 128, x1 (ix2 p k) * w4 (ix2 k q))
          + ∑ k : Fin 128, x2 (ix2 p k) * w5 (ix2 k q)) 0 := by
  unfold k0_pay1
  rw [maximumf_apply, addf_apply, addf_apply, broadcast_apply, dot_eq]
  simp only [matmul]
  rw [Cert.PlainDot.matmul_zero_apply, Cert.PlainDot.matmul_zero_apply, Cert.PlainDot.matmul_zero_apply]
  simp only [truncf_apply, shapeCast_self]
  show max _ (Ideal.ofBits .f32 0x00000000#32) = _
  rw [Ideal.ofBits_zero_f32]

/-- The same entry when the three row blocks are rows `r p` of three whole [100000, 128] arrays and the three weight
    blocks are the three column bands of the stored [128, 384] weights, transposed: it is `Bands.out` of the whole
    arrays at (r p, q). -/
theorem pay_block (X0 X1 X2 : Vec Ideal S100000x128 .f32) (W : Vec Ideal S128x384 .f32)
    (x0 x1 x2 : Vec Ideal S5000x128 .f32) (w3 w4 w5 : Vec Ideal S128x128 .f32) (r : Fin 5000 → Fin 100000)
    (e0 : ∀ p k, x0 (ix2 p k) = X0 (ix2 (r p) k)) (e1 : ∀ p k, x1 (ix2 p k) = X1 (ix2 (r p) k))
    (e2 : ∀ p k, x2 (ix2 p k) = X2 (ix2 (r p) k))
    (e3 : ∀ k q, w3 (ix2 k q) = W (ix2 q (Cert.Bands.col0 k))) (e4 : ∀ k q, w4 (ix2 k q) = W (ix2 q (Cert.Bands.col1 k)))
    (e5 : ∀ k q, w5 (ix2 k q) = W (ix2 q (Cert.Bands.col2 k)))
    (p : Fin 5000) (q : Fin 128) :
    k0_pay1 (F := Ideal) x0 x1 x2 w3 w4 w5 (ix2 p q) = Cert.Bands.out X0 X1 X2 W (ix2 (r p) q) := by
  rw [pay_apply]
  simp only [e0, e1, e2, e3, e4, e5]
  rfl

end Cert.KernelPay

end
-- ==== Proof.KernelValue.lean ====
/-
  The kernel's result array as one function of the arrays the region finds.

  The grid has 20 points; point t stages rows 5000·t … 5000·t + 4999 of feat, of the forward aggregate and of the
  backward aggregate, and the whole of three [128, 128] weight arrays, and writes rows 5000·t … 5000·t + 4999 of the
  result. The three weight arrays are written by the host before the region: the three 128-column bands of the stored
  [128, 384] weights, each transposed. So what point t writes back is block t of `Bands.out` of the whole arrays
  (`KernelPay.pay_block`), the 20 blocks tile the result, and the result array ends as `Bands.out`.
-/
import proofs.«101564_j81329500717451_1_alg».proof.Proof.Gen.KernelIdeal.Value
import proofs.«101564_j81329500717451_1_alg».proof.Proof.KernelPay
import proofs.«101564_j81329500717451_1_alg».proof.Proof.Bands
import Idealize.ShloMosaic.Lib.ValueLayout
import Idealize.ShloMosaic.Lib.StableHlo.Run

set_option maxRecDepth 16384

noncomputable section

open scoped BigOperators

namespace Cert.KernelValue

open Cert.KernelIdeal Cert.KernelIdeal.Gen Cert.KernelIdeal.Value
open Idealize.ShloMosaic Idealize.ShloMosaic.TcCoe Idealize.SL.Sem Idealize.ShloMosaic.StableHlo
open Idealize.ShloMosaic.Pipeline (Dat)
open Idealize.ShloMosaic.ValueIdx Cert.Bands

variable (m : (ℓ : Loc nD τ sig) → Buf (Elt Ideal) ℓ) (ρ : Dev nD → PrngReg)

/-! ## The arrays the region finds -/

/-- feat, as the region finds it. -/
abbrev feat (c : Dev nD) : Vec Ideal S100000x128 .f32 := V m c main_arg0
/-- The forward mean-aggregate the host computed before the region. -/
abbrev fwd (c : Dev nD) : Vec Ideal S100000x128 .f32 := V m c (Pipeline.arrRef spec0 1)
/-- The backward mean-aggregate the host computed before the region. -/
abbrev bwd (c : Dev nD) : Vec Ideal S100000x128 .f32 := V m c (Pipeline.arrRef spec0 2)
/-- The stored [128, 384] weights, as launched. -/
abbrev wts (c : Dev nD) : Vec Ideal S128x384 .f32 := m ((c : Thread nD τ).loc main_arg1)

/-- The result array: `Bands.out` of those four. -/
abbrev result (c : Dev nD) : Vec Ideal S100000x128 .f32 := out (feat m c) (fwd m c) (bwd m c) (wts m c)

/-! ## The weight windows' arrays: the bands of the stored weights, transposed -/

theorem wband0 (c : Dev nD) (k q : Fin 128) : V m c main_v43 (ix2 k q) = wts m c (ix2 q (col0 k)) := by
  have e : (V m c main_v43 : S128x128.Idx → EReal)
      = transpose S128x128 [1, 0] (extractStridedSlice S128x128 ![0, 0] (wts m c) slices_S128x384_S128x128_0_0) transposes_S128x128_S128x128_1_0 := by
    dsimp only [V, hostOps0]; after_results
  rw [e, transpose_ix2_apply]
  exact extractStridedSlice_apply _ _ _ _ _ (fun a => match a with
    | ⟨0, _⟩ => (Nat.zero_add _).symm
    | ⟨1, _⟩ => (Nat.zero_add _).symm)

theorem wband1 (c : Dev nD) (k q : Fin 128) : V m c main_v45 (ix2 k q) = wts m c (ix2 q (col1 k)) := by
  have e : (V m c main_v45 : S128x128.Idx → EReal)
      = transpose S128x128 [1, 0] (extractStridedSlice S128x128 ![0, 128] (wts m c) slices_S128x384_S128x128_0_128) transposes_S128x128_S128x128_1_0 := by
    dsimp only [V, hostOps0]; after_results
  rw [e, transpose_ix2_apply]
  exact extractStridedSlice_apply _ _ _ _ _ (fun a => match a with
    | ⟨0, _⟩ => (Nat.zero_add _).symm
    | ⟨1, _⟩ => rfl)

theorem wband2 (c : Dev nD) (k q : Fin 128) : V m c main_v47 (ix2 k q) = wts m c (ix2 q (col2 k)) := by
  have e : (V m c main_v47 : S128x128.Idx → EReal)
      = transpose S128x128 [1, 0] (extractStridedSlice S128x128 ![0, 256] (wts m c) slices_S128x384_S128x128_0_256) transposes_S128x128_S128x128_1_0 := by
    dsimp only [V, hostOps0]; after_results
  rw [e, transpose_ix2_apply]
  exact extractStridedSlice_apply _ _ _ _ _ (fun a => match a with
    | ⟨0, _⟩ => (Nat.zero_add _).symm
    | ⟨1, _⟩ => rfl)

/-! ## What a point writes back -/

theorem hz : (![0, 0] : Fin 2 → Nat) = fun _ => 0 := funext fun a => by fin_cases a <;> rfl

/-- The printed index maps over the 20 grid points: the three row windows and the result window sit at block row t,
    column block 0; the three weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's blocks is row 5000·t + p of the arrays. -/
def rowOf (t : Fin cfg0.N) (p : Fin 5000) : Fin 100000 :=
  ⟨t.val * 5000 + p.val, by have h := t.isLt; have hN : cfg0.N = 20 := N_0; have hp := p.isLt; omega⟩

/-- Row p of window 0's block at point t is row 5000·t + p of its array. -/
theorem blk0 (c : Dev nD) (t : Fin cfg0.N) (p : Fin 5000) (k : Fin 128) :
    iblk m c 0 t (ix2 p k) = feat m c (ix2 (rowOf t p) k) := by
  obtain ⟨a0, a1, b0, b1, c0, c1, d0, d1, e0, e1, f0, f1, g0, g1⟩ := idx_facts t
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block at point t of ANY array of its shape: row p of the block is row 5000·t + p of the array. -/
theorem row1 (A : Vec Ideal S100000x128 .f32) (t : Fin cfg0.N) (p : Fin 5000) (k : Fin 128) :
    ((cfg0.win 1).blk t).view.read (Elt Ideal) A (ix2 p k) = A (ix2 (rowOf t p) k) := by
  obtain ⟨a0, a1, b0, b1, c0, c1, d0, d1, e0, e1, f0, f1, g0, g1⟩ := idx_facts t
  show A (((cfg0.win 1).blk t).view.emb (ix2 p k)) = A (ix2 (rowOf t p) k)
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk1 (c : Dev nD) (t : Fin cfg0.N) (p : Fin 5000) (k : Fin 128) :
    iblk m c 1 t (ix2 p k) = fwd m c (ix2 (rowOf t p) k) :=
  row1 (fwd m c) t p k

/-- Window 2's block at point t of ANY array of its shape: row p of the block is row 5000·t + p of the array. -/
theorem row2 (A : Vec Ideal S100000x128 .f32) (t : Fin cfg0.N) (p : Fin 5000) (k : Fin 128) :
    ((cfg0.win 2).blk t).view.read (Elt Ideal) A (ix2 p k) = A (ix2 (rowOf t p) k) := by
  obtain ⟨a0, a1, b0, b1, c0, c1, d0, d1, e0, e1, f0, f1, g0, g1⟩ := idx_facts t
  show A (((cfg0.win 2).blk t).view.emb (ix2 p k)) = A (ix2 (rowOf t p) k)
  refine congrArg A (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

theorem blk2 (c : Dev nD) (t : Fin cfg0.N) (p : Fin 5000) (k : Fin 128) :
    iblk m c 2 t (ix2 p k) = bwd m c (ix2 (rowOf t p) k) :=
  row2 (bwd m c) t p k

/-- Window 3's block at every point is its whole array: a band of the stored weights, transposed. -/
theorem blk3 (c : Dev nD) (t : Fin cfg0.N) (k q : Fin 128) :
    iblk m c 3 t (ix2 k q) = wts m c (ix2 q (col0 k)) := by
  obtain ⟨a0, a1, b0, b1, c0, c1, d0, d1, e0, e1, f0, f1, g0, g1⟩ := idx_facts t
  refine Eq.trans ?_ (wband0 m c k q)
  show V m c main_v43 (((cfg0.win 3).blk t).view.emb (ix2 k q)) = V m c main_v43 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Window 4's block at every point is its whole array: a band of the stored weights, transposed. -/
theorem blk4 (c : Dev nD) (t : Fin cfg0.N) (k q : Fin 128) :
    iblk m c 4 t (ix2 k q) = wts m c (ix2 q (col1 k)) := by
  obtain ⟨a0, a1, b0, b1, c0, c1, d0, d1, e0, e1, f0, f1, g0, g1⟩ := idx_facts t
  refine Eq.trans ?_ (wband1 m c k q)
  show V m c main_v45 (((cfg0.win 4).blk t).view.emb (ix2 k q)) = V m c main_v45 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Window 5's block at every point is its whole array: a band of the stored weights, transposed. -/
theorem blk5 (c : Dev nD) (t : Fin cfg0.N) (k q : Fin 128) :
    iblk m c 5 t (ix2 k q) = wts m c (ix2 q (col2 k)) := by
  obtain ⟨a0, a1, b0, b1, c0, c1, d0, d1, e0, e1, f0, f1, g0, g1⟩ := idx_facts t
  refine Eq.trans ?_ (wband2 m c k q)
  show V m c main_v47 (((cfg0.win 5).blk t).view.emb (ix2 k q)) = V m c main_v47 (ix2 k q)
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- Point t writes back block t of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S128x128) hz]
  obtain ⟨a0, a1, b0, b1, c0, c1, d0, d1, e0, e1, f0, f1, g0, g1⟩ := idx_facts t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
      = result m c (((cfg0.win 6).blk t).view.emb (ix2 p q))
  refine (Cert.KernelPay.pay_block (feat m c) (fwd m c) (bwd m c) (wts m c)
    (iblk m c 0 t) (iblk m c 1 t) (iblk m c 2 t) (iblk m c 3 t) (iblk m c 4 t) (iblk m c 5 t) (rowOf t)
    (blk0 m c t) (blk1 m c t) (blk2 m c t) (blk3 m c t) (blk4 m c t) (blk5 m c t) p q).trans ?_
  refine congrArg (result m c) (funext fun a => Fin.ext ?_)
  match a with
  | ⟨0, _⟩ => show t.val * 5000 + p.val = win0_6.index t (0 : Fin 2) * 5000 + 1 * p.val; omega
  | ⟨1, _⟩ => show q.val = win0_6.index t (1 : Fin 2) * 128 + 1 * q.val; omega

/-! ## The blocks tile the result -/

theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v48).slice (win0_6.rect t)).set ↔ _
  rw [View.set_slice_whole, Rect.mem_set_unit]
  exact Iff.rfl

/-- Row r of the result lies in the block of point r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by omega
  obtain ⟨_, _, _, _, _, _, _, _, _, _, _, _, g0, g1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [g0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [g1]; omega

/-- The result array after the run is `result`. -/
theorem final (c : Dev nD) : (dats m 0 c).arrAt 6 cfg0.N = result m c :=
  (dats m 0 c).arrAt_eq_of_cover 6 (result m c) (fun t _ => flushed_eq m c t) cover

/-! ## The run -/

/-- Every weakly fair execution of the idealized kernel program ends with its result array at `result` and its
    arguments unchanged. -/
theorem run : θ_run defs (onTc (τ := τ) (main (F := Ideal))) ⟨m, fun _ => 0, ρ⟩ fun r => ∀ c : Dev nD,
      r.2.mem ((c : Thread nD τ).loc main_v48) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelValue

end
-- ==== Proof.RefValue.lean ====
/-
  The reference's result, read at an index, is the three-band form.

  The reference concatenates feat, the forward mean-aggregate and the backward mean-aggregate along the columns into a
  [100000, 384] matrix, multiplies it against the stored [128, 384] weights transposed, and applies max(·, 0).
  Entry (p, q) of the product is the sum over the 384 columns; by bands (`Bands.sum_bands`), with the concatenation
  read piece by piece (`Bands.concat_col0/1/2`) and the transpose read at its swapped index, that is `Bands.lin`.
  The two aggregates stay the unopened terms the reference's own stages name: nothing here depends on what a
  gather or a scatter-add computes.
-/
import proofs.«101564_j81329500717451_1_alg».proof.Proof.Gen.ReferenceIdeal.Read
import proofs.«101564_j81329500717451_1_alg».proof.Proof.Bands

noncomputable section

open scoped BigOperators

namespace Cert.RefValue

open Cert.ReferenceIdeal Cert.ReferenceIdeal.Gen Cert.ReferenceIdeal.Read
open Idealize.ShloMosaic Idealize.ShloMosaic.ValueIdx Cert.Bands

/-- The product's left index at column k is (p, k). -/
theorem lidx_eq (p : Fin 100000) (q : Fin 128) (k : Fin 384) : lidx_main_v44 (ix2 p q) k = ix2 p k :=
  funext fun a => Fin.ext (by match a with | ⟨0, _⟩ => rfl | ⟨1, _⟩ => rfl)

/-- The product's right index at column k, through the transpose, is (q, k) of the stored weights. -/
theorem ridx_eq (p : Fin 100000) (q : Fin 128) (k : Fin 384) : idx_main_v43 (ridx_main_v44 (ix2 p q) k) = ix2 q k :=
  funext fun a => Fin.ext (by match a with | ⟨0, _⟩ => rfl | ⟨1, _⟩ => rfl)

theorem wt_apply (x1 : (⟨S128x384, .f32⟩ : BufTy).Contents (Elt Ideal)) (p : Fin 100000) (q : Fin 128) (k : Fin 384) :
    val_main_v43 (F := Ideal) x1 (ridx_main_v44 (ix2 p q) k) = x1 (ix2 q k) := by
  rw [val_main_v43_apply, ridx_eq]

variable (x0 : (⟨S100000x128, .f32⟩ : BufTy).Contents (Elt Ideal)) (x2 : (⟨S2x800000, .i32⟩ : BufTy).Contents (Elt Ideal))

theorem cat0 (p : Fin 100000) (q : Fin 128) (k : Fin 128) :
    val_main_v42 (F := Ideal) x0 x2 (lidx_main_v44 (ix2 p q) (col0 k)) = x0 (ix2 p k) := by
  rw [lidx_eq]; unfold val_main_v42; exact concat_col0 _ _ _ _ p k

theorem cat1 (p : Fin 100000) (q : Fin 128) (k : Fin 128) :
    val_main_v42 (F := Ideal) x0 x2 (lidx_main_v44 (ix2 p q) (col1 k)) = val_main_v22 (F := Ideal) x0 x2 (ix2 p k) := by
  rw [lidx_eq]; unfold val_main_v42; exact concat_col1 _ _ _ _ p k

theorem cat2 (p : Fin 100000) (q : Fin 128) (k : Fin 128) :
    val_main_v42 (F := Ideal) x0 x2 (lidx_main_v44 (ix2 p q) (col2 k)) = val_main_v41 (F := Ideal) x0 x2 (ix2 p k) := by
  rw [lidx_eq]; unfold val_main_v42; exact concat_col2 _ _ _ _ p k

/-- The reference's last stage is `Bands.out` of feat, the two aggregates and the weights. -/
theorem ref_eq (x1 : (⟨S128x384, .f32⟩ : BufTy).Contents (Elt Ideal)) :
    val_main_v45 (F := Ideal) x0 x1 x2
      = out x0 (val_main_v22 (F := Ideal) x0 x2) (val_main_v41 (F := Ideal) x0 x2) x1 := by
  funext j
  obtain ⟨p, q, rfl⟩ : ∃ (p : Fin 100000) (q : Fin 128), j = ix2 p q := ⟨j 0, j 1, eq_ix2 j⟩
  rw [val_main_v45_apply, val_main_v44_apply, val_main_call0_v0_apply, val_main_call0_cst_apply, sum_bands]
  simp only [cat0, cat1, cat2, wt_apply]
  show max _ (Ideal.ofBits .f32 0x00000000#32) = max (lin _ _ _ _ p q) 0
  rw [Ideal.ofBits_zero_f32]
  rfl

end Cert.RefValue

end
-- ==== Proof.Aggregates.lean ====
/-
  The two mean-aggregates are the same terms in both programs.

  Before its one region the kernel program computes, on the host, the forward and the backward mean-aggregate of feat
  over the edge list: gather the source rows, scatter-add them by destination, divide by max(degree, 1); and the same
  with the two rows of the edge list exchanged. The reference computes them by the same operations in the same order.
  Neither aggregate is opened here: the two programs' terms are one term of feat and the edge list.
-/
import proofs.«101564_j81329500717451_1_alg».proof.Proof.Gen.KernelIdeal.Frame
import proofs.«101564_j81329500717451_1_alg».proof.Proof.Gen.ReferenceIdeal.Read
import Idealize.ShloMosaic.Lib.StableHlo.Run

set_option maxRecDepth 16384

noncomputable section

namespace Cert.Aggregates

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 2000000 in
/-- The array the kernel's second window stages is the reference's forward aggregate of the same feat and edges. -/
theorem fwd_eq (c : Dev nD) :
    V m c (Pipeline.arrRef spec0 1)
      = Cert.ReferenceIdeal.Read.val_main_v22 (F := Ideal) (m ((c : Thread nD τ).loc main_arg0)) (m ((c : Thread nD τ).loc main_arg2)) := by
  show StableHlo.after hostOps0 (fun b => m (c, b)) (Proc.devRef .tc main_v22) = _
  after_results
  rfl

set_option maxHeartbeats 2000000 in
/-- The array the kernel's third window stages is the reference's backward aggregate. -/
theorem bwd_eq (c : Dev nD) :
    V m c (Pipeline.arrRef spec0 2)
      = Cert.ReferenceIdeal.Read.val_main_v41 (F := Ideal) (m ((c : Thread nD τ).loc main_arg0)) (m ((c : Thread nD τ).loc main_arg2)) := by
  show StableHlo.after hostOps0 (fun b => m (c, b)) (Proc.devRef .tc main_v41) = _
  after_results
  rfl

end Cert.Aggregates

end
-- ==== Proof.lean ====
/-
  A bidirectional mean-aggregation layer: relu([feat | fwd | bwd] · Wᵀ), where fwd and bwd are the mean-aggregates of
  feat over the edge list in its two directions, feat is [100000, 128] and W is a stored [128, 384] weight matrix.

  The kernel program computes the two aggregates on the host, cuts W into its three 128-column bands, transposes each,
  and in one grid of 20 points over blocks of 5000 rows forms
      max(feat·W₀ᵀ + fwd·W₁ᵀ + bwd·W₂ᵀ, 0).
  The reference computes the same two aggregates by the same host operations, concatenates the three matrices along
  the columns, and takes one matrix product with Wᵀ followed by max(·, 0).

  On the extended reals the bf16 roundings are the identity, each product into a zero accumulator is its plain sum, and
  the one sum over 384 columns is the sum of its three bands of 128 (addition is commutative and associative; no entry
  needs to be finite). So both result arrays are `Bands.out` of feat, the two aggregates and W:
  `KernelValue.run` for the kernel, `RefValue.ref_eq` over the reference's run, and `Aggregates.fwd_eq` / `bwd_eq` say
  the aggregates on the two sides are one term of the arguments. The three frame claims are the generated frames of the
  two kernel programs and the reference's run with its result dropped; the idealization rewrote nothing.
-/
import proofs.«101564_j81329500717451_1_alg».proof.Defs
import proofs.«101564_j81329500717451_1_alg».proof.Proof.Gen.Kernel
import proofs.«101564_j81329500717451_1_alg».proof.Proof.Gen.Kernel.Skeleton
import proofs.«101564_j81329500717451_1_alg».proof.Proof.Gen.Kernel.Launch
import proofs.«101564_j81329500717451_1_alg».proof.Proof.Gen.Kernel.Points
import proofs.«101564_j81329500717451_1_alg».proof.Proof.Gen.Kernel.Frame
import proofs.«101564_j81329500717451_1_alg».proof.Proof.Gen.KernelIdeal
import proofs.«101564_j81329500717451_1_alg».proof.Proof.Gen.KernelIdeal.Skeleton
import proofs.«101564_j81329500717451_1_alg».proof.Proof.Gen.KernelIdeal.Launch
import proofs.«101564_j81329500717451_1_alg».proof.Proof.Gen.KernelIdeal.Points
import proofs.«101564_j81329500717451_1_alg».proof.Proof.Gen.KernelIdeal.Frame
import proofs.«101564_j81329500717451_1_alg».proof.Proof.Gen.ReferenceIdeal
import proofs.«101564_j81329500717451_1_alg».proof.Proof.Gen.Pre_finite_inputs
import proofs.«101564_j81329500717451_1_alg».proof.Proof.Gen.KernelIdeal.Value
import proofs.«101564_j81329500717451_1_alg».proof.Proof.Gen.ReferenceIdeal.Run
import proofs.«101564_j81329500717451_1_alg».proof.Proof.Gen.ReferenceIdeal.Read
import proofs.«101564_j81329500717451_1_alg».proof.Proof.KernelValue
import proofs.«101564_j81329500717451_1_alg».proof.Proof.RefValue
import proofs.«101564_j81329500717451_1_alg».proof.Proof.Aggregates
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result arrays at `Bands.out` of feat, the forward and backward aggregates and the
    weights, of arguments that agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.RefValue.ref_eq, (hagree c).1, (hagree c).2.1, (hagree c).2.2]
  show _ = Cert.Bands.out (Cert.KernelIdeal.Gen.V m c Cert.KernelIdeal.main_arg0)
    (Cert.KernelIdeal.Gen.V m c (Pipeline.arrRef Cert.KernelIdeal.spec0 1))
    (Cert.KernelIdeal.Gen.V m c (Pipeline.arrRef Cert.KernelIdeal.spec0 2)) (m ((c : Thread Cert.KernelIdeal.nD Cert.KernelIdeal.τ).loc Cert.KernelIdeal.main_arg1))
  rw [Cert.Aggregates.fwd_eq, Cert.Aggregates.bwd_eq, Cert.KernelIdeal.Gen.V_main_arg0]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
